-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S10x64 : Shape := ⟨2, ![10, 64]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S10x64 : S_.BroadcastsInDim S10x64 (![] : Fin 0 → Fin S10x64.rank)
  reducesTo_S10x64_S_d0_1 : S10x64.ReducesTo [0, 1] S_

variable [Facts]

def fn {F : FTy → Type} [FloatOps F] (main_arg0 : FVec F S16384x64 .f32) (main_arg1 : FVec F S10x64 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S10x64 .f32 := Host.absf main_arg1
  let main_cst_0 : FVec F S_ .f32 := constant S_ .f32 0x7F800000#32
  let main_v5 : FVec F S10x64 .f32 := broadcastInDim S10x64 ![] bcast_S_S10x64 main_cst_0
  let main_v6 : IVec S10x64 1 := cmpf .olt main_v4 main_v5
  let main_c_1 : IVec S_ 1 := constantI S_ 1 1#1
  let main_v7 : IVec S_ 1 := (fun x v => Host.reduce IntOp.andi x v reducesTo_S10x64_S_d0_1 h_S_) main_v6 main_c_1
  let main_v8 : IVec S_ 1 := andi main_v3 main_v7
  main_v8
-- ==== Kernel.lean ====
abbrev S16384x64 : Shape := ⟨2, ![16384, 64]⟩
abbrev S10x64 : Shape := ⟨2, ![10, 64]⟩
abbrev S64x16384 : Shape := ⟨2, ![64, 16384]⟩
abbrev S10x16384 : Shape := ⟨2, ![10, 16384]⟩
abbrev S16x2048 : Shape := ⟨2, ![16, 2048]⟩
abbrev S10x2048 : Shape := ⟨2, ![10, 2048]⟩
abbrev S10x16 : Shape := ⟨2, ![10, 16]⟩
abbrev S16384x10 : Shape := ⟨2, ![16384, 10]⟩

abbrev nBuf : Space → Nat
  | .hbm => 5
  | .vmem => 11
  | .smem => 0
  | _ => 0

abbrev bufTy : (tb : Table) → Fin (tcTables nBuf tb) → BufTy
  | .hbm, ⟨0, _⟩ => ⟨S16384x64, .f32⟩
  | .hbm, ⟨1, _⟩ => ⟨S10x64, .f32⟩
  | .hbm, ⟨2, _⟩ => ⟨S64x16384, .f32⟩
  | .hbm, ⟨3, _⟩ => ⟨S10x16384, .f32⟩
  | .hbm, ⟨4, _⟩ => ⟨S16384x10, .f32⟩
  | .local _ .vmem, ⟨0, _⟩ => ⟨S10x64, .f32⟩
  | .local _ .vmem, ⟨1, _⟩ => ⟨S16x2048, .f32⟩
  | .local _ .vmem, ⟨2, _⟩ => ⟨S16x2048, .f32⟩
  | .local _ .vmem, ⟨3, _⟩ => ⟨S16x2048, .f32⟩
  | .local _ .vmem, ⟨4, _⟩ => ⟨S16x2048, .f32⟩
  | .local _ .vmem, ⟨5, _⟩ => ⟨S16x2048, .f32⟩
  | .local _ .vmem, ⟨6, _⟩ => ⟨S16x2048, .f32⟩
  | .local _ .vmem, ⟨7, _⟩ => ⟨S16x2048, .f32⟩
  | .local _ .vmem, ⟨8, _⟩ => ⟨S16x2048, .f32⟩
  | .local _ .vmem, ⟨9, _⟩ => ⟨S10x2048, .f32⟩
  | .local _ .vmem, ⟨10, _⟩ => ⟨S10x2048, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c1_i32 : BitVec 32 := 1#32
  let c0_i32 : BitVec 32 := 0#32
  ![c1_i32.toNat, arg0.toNat]

def cc0_transform_3 (i : grid0.Coords) : Fin 2 → Nat :=
  let arg0 : BitVec 32 := BitVec.ofNat 32 (i 0).val
  let c2_i32 : BitVec 32 := 2#32
  let c0_i32 : BitVec 32 := 0#32
  ![c2_i32.toNat, arg0.toNat]

def cc0_transform_4 (i : grid0.Coords) : Fin 2 → Nat :=
  let arg0 : BitVec 32 := BitVec.ofNat 32 (i 0).val
  let c3_i32 : BitVec 32 := 3#32
  let c0_i32 : BitVec 32 := 0#32
  ![c3_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S10x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S10x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S16384x64_S64x16384_1_0 : S16384x64.Transposes [1, 0] S64x16384
  inb_S10x64_S10x64_0_0 : ∀ a, (![0, 0] : Fin 2 → Nat) a + S10x64.size a ≤ S10x64.size a
  h_S10x64 : 0 < S10x64.numel
  slices_S10x64_o0_0_S10x16 : S10x64.Slices ![0, 0] S10x16
  inb_S16x2048_S16x2048_0_0 : ∀ a, (![0, 0] : Fin 2 → Nat) a + S16x2048.size a ≤ S16x2048.size a
  h_S16x2048 : 0 < S16x2048.numel
  shapeCasts_S16x2048_S16x2048 : S16x2048.ShapeCasts S16x2048
  slices_S10x64_o0_16_S10x16 : S10x64.Slices ![0, 16] S10x16
  slices_S10x64_o0_32_S10x16 : S10x64.Slices ![0, 32] S10x16
  slices_S10x64_o0_48_S10x16 : S10x64.Slices ![0, 48] S10x16
  inb_S10x2048_S10x2048_0_0 : ∀ a, (![0, 0] : Fin 2 → Nat) a + S10x2048.size a ≤ S10x2048.size a
  h_S10x2048 : 0 < S10x2048.numel
  transposes_S10x16384_S16384x10_1_0 : S10x16384.Transposes [1, 0] S16384x10
  dot_S10x16_S16x2048_S10x2048_1_0_0_1_n_n_wf : DotDims.WF S10x16 S16x2048 S10x2048 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10x64.size a ≤ S10x64.size a
  hwx0_0 : ∀ i : grid0.Coords, EltTy.bits .f32 = 32 ∨ (Rect.block (s := S10x64) S10x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x2048.size a ≤ S64x16384.size a
  hwx0_1 : ∀ i : grid0.Coords, EltTy.bits .f32 = 32 ∨ (Rect.block (s := S64x16384) S16x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x2048.size a ≤ S64x16384.size a
  hwx0_2 : ∀ i : grid0.Coords, EltTy.bits .f32 = 32 ∨ (Rect.block (s := S64x16384) S16x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x2048.size a ≤ S64x16384.size a
  hwx0_3 : ∀ i : grid0.Coords, EltTy.bits .f32 = 32 ∨ (Rect.block (s := S64x16384) S16x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x2048.size a ≤ S64x16384.size a
  hwx0_4 : ∀ i : grid0.Coords, EltTy.bits .f32 = 32 ∨ (Rect.block (s := S64x16384) S16x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10x2048.size a ≤ S10x16384.size a
  hwx0_5 : ∀ i : grid0.Coords, EltTy.bits .f32 = 32 ∨ (Rect.block (s := S10x16384) S10x2048.size (cc0_transform_5 i) (hinb0_5 i)).WholeWords (EltTy.packing .f32)

variable [Facts₀]

def dot_S10x16_S16x2048_S10x2048_1_0_0_1_n_n : DotDims S10x16 S16x2048 S10x2048 where
  lhsContracting := [1]
  rhsContracting := [0]
  lhsNonContracting := [0]
  rhsNonContracting := [1]
  lhsBatch := []
  rhsBatch := []
  wf := dot_S10x16_S16x2048_S10x2048_1_0_0_1_n_n_wf

abbrev win0_0 : Pipeline.Window sig grid0 :=
  Pipeline.Window.ofSpec (Memref.whole main_arg1) S10x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S16x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S16x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S16x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S10x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x64 : Shape := ⟨2, ![16384, 64]⟩
abbrev S10x64 : Shape := ⟨2, ![10, 64]⟩
abbrev S16384x10 : Shape := ⟨2, ![16384, 10]⟩

abbrev nBuf : Space → Nat
  | .hbm => 3
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S10x64, .f32⟩
  | .hbm, ⟨2, _⟩ => ⟨S16384x10, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S16384x64_S10x64_S16384x10_1_1_0_0_n_n_wf : DotDims.WF S16384x64 S10x64 S16384x10 [1] [1] [0] [0] [] []

variable [Facts₀]

def dot_S16384x64_S10x64_S16384x10_1_1_0_0_n_n : DotDims S16384x64 S10x64 S16384x10 where
  lhsContracting := [1]
  rhsContracting := [1]
  lhsNonContracting := [0]
  rhsNonContracting := [0]
  lhsBatch := []
  rhsBatch := []
  wf := dot_S16384x64_S10x64_S16384x10_1_1_0_0_n_n_wf

class Facts : Prop extends Facts₀ where

variable [Facts]
-- ==== Proof.KernelBody.lean ====
/-
  The kernel's frame, first half: what the body does at one grid point.

  The program is a host transpose of x into xT (64 × 16384), one pallas_call on a grid of 8 points, and a host
  transpose of its result. The call has six windows: the weights W (10 × 64, one block, fetched once), FOUR windows
  on the one array xT — window k+1 reads rows 16k … 16k+15 of the 2048 columns of point t — and the output
  (10 × 16384, block t its columns 2048 t … 2048 t + 2047). At a point the body loads the five input blocks whole,
  computes one value and stores it over the whole output block. Because four windows read one array, each holds a
  quarter share of it; the weights' window and the output hold their arrays outright.
-/
import proofs.«131396_g12841952215599_cont_fleet_1482_6_alg».proof.Proof.Gen.Kernel.Launch
import proofs.«131396_g12841952215599_cont_fleet_1482_6_alg».proof.Proof.Gen.Kernel.Skeleton
import proofs.«131396_g12841952215599_cont_fleet_1482_6_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the call finds them -/

/-- The buffers' contents when the call is entered: the launch contents after the first transpose. -/
abbrev V0 (c : Dev nD) : Valuation τ sig (Elt F) := StableHlo.after (List.flatten [hostOps0]) (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the first transpose, the call, the second transpose: it reduces to the call continued by the second. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The first transpose writes neither argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, Finset.mem_singleton]
    exact StableHlo.devRef_ne_of_ne (by decide)))

/-! ## The windows' blocks -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses and what it leaves in the output block -/

abbrev rW : Rect S10x64 := Rect.unit (s := S10x64) ![0, 0] S10x64.size inb_S10x64_S10x64_0_0
abbrev rX : Rect S16x2048 := Rect.unit (s := S16x2048) ![0, 0] S16x2048.size inb_S16x2048_S16x2048_0_0
abbrev rO : Rect S10x2048 := Rect.unit (s := S10x2048) ![0, 0] S10x2048.size inb_S10x2048_S10x2048_0_0

/-- The output block after the body: its one store, of the body's value of the five loaded blocks. -/
def outBlk (w : Vec F S10x64 .f32) (x1 x2 x3 x4 : Vec F S16x2048 .f32) : Vec F S10x2048 .f32 :=
  View.canon [⟨rO, k0_pay1 (View.ld w rW) (View.ld x1 rX) (View.ld x2 rX) (View.ld x3 rX) (View.ld x4 rX)⟩]

/-- The one store covers the block. -/
theorem outCover (p0 : Vec F S10x2048 .f32) (y : S10x2048.Idx) :
    ∃ pc ∈ ([⟨rO, p0⟩] : List (View.Piece (Elt F) S10x2048 .f32)), y ∈ pc.1.set :=
  View.cover_of_tiled [⟨rO, p0⟩] S10x2048.size (by rfl) y

/-! ## The body's triple -/

set_option maxHeartbeats 1000000 in
/-- On whole staging buffers, the inputs' at known contents and the output's at anything, the body runs to the
    continuation with the inputs' as they were and the output's at `outBlk` of them. -/
theorem sound_kernel (c : Dev nD) (E : Set ℕ) (i : grid0.Coords)
    (arg1 : Memref sig .tc .vmem S10x64 .f32) (harg1 : arg1.IsWhole)
    (arg2 : Memref sig .tc .vmem S16x2048 .f32) (harg2 : arg2.IsWhole) (arg3 : Memref sig .tc .vmem S16x2048 .f32) (harg3 : arg3.IsWhole)
    (arg4 : Memref sig .tc .vmem S16x2048 .f32) (harg4 : arg4.IsWhole) (arg5 : Memref sig .tc .vmem S16x2048 .f32) (harg5 : arg5.IsWhole)
    (arg6 : Memref sig .tc .vmem S10x2048 .f32) (harg6 : arg6.IsWhole)
    (w : Vec F S10x64 .f32) (x1 x2 x3 x4 : Vec F S16x2048 .f32) (K : PUnit → sProp 𝕄) :
    iprop(owns (c : Thread nD τ) arg1 fullShare w ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare w ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outBlk w x1 x2 x3 x4)) -∗ K ⟨⟩))
      ⊢ wp frame (wpE (defs₀ (F := F)) Variants.none c none) E (cc0__mm_body i arg1 harg1 arg2 harg2 arg3 harg3 arg4 harg4 arg5 harg5 arg6 harg6) K := by
  simp only [cc0__mm_body_eq_skeleton]; unfold cc0__mm_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (outCover _)

/-! ## The proof data -/

/-- The share of xT each of its four windows holds: the four quarters of the whole. -/
def qOf : Fin cfg0.W → PosShare TreeShare
  | ⟨0, _⟩ => fullShare
  | ⟨1, _⟩ => fullShare.left.left
  | ⟨2, _⟩ => fullShare.left.right
  | ⟨3, _⟩ => fullShare.right.left
  | ⟨4, _⟩ => fullShare.right.right
  | ⟨5, _⟩ => fullShare

/-- The call's proof data on core `c`: the arrays as the call finds them; after the body at point `t` each input's
    buffer at its block and the output's at `outBlk` of the input blocks; the invariant is the scoped rest and the
    generator register, untouched; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk (iblk m c 0 t) (iblk m c 1 t) (iblk m c 2 t) (iblk m c 3 t) (iblk m c 4 t)
  Φ _ := Pipeline.ΦA spec0 c
  q := qOf
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t
    = outBlk (iblk m c 0 t) (iblk m c 1 t) (iblk m c 2 t) (iblk m c 3 t) (iblk m c 4 t) := by dsimp only [dats]

/-- An input window's current buffer holds its block at every point, fetched there or not: the body leaves it in
    place, and where it is not fetched its block index has not moved. -/
theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
      (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
      (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
      (fun t => by rw [after0_4]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KernelRun.lean ====
/-
  The kernel's frame, second half: the launch of the one call between the two host transposes.

  Four of the call's windows read the one array xT, so the array's whole share cannot go to each: at entry it is halved
  and each half halved again, one quarter to each window that reads it (reading needs only a share), while the weights
  and the output array are held outright. The call then runs point by point on the body's triple. At its exit the second
  transpose needs the output array and the result buffer whole, which it has: the output window held its array outright,
  and the result buffer bypassed the call. The run ends with the result buffer at the output array transposed, and x and
  W untouched (no operation writes either).
-/
import proofs.«131396_g12841952215599_cont_fleet_1482_6_alg».proof.Proof.KernelBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The call's arrays, window by window -/

/-- The windows' arrays at their shares: the weights and the output whole, xT in four quarters. -/
theorem arrays_eq' (c : Dev nD) (Fv : (w : Fin cfg0.W) → Buf (Elt F) ((cfg0.win w).arr.view.loc (c.tc : Thread nD τ))) :
    ((dats m 0 c).arrays Fv : sProp 𝕄) = iprop(
      (((c : Thread nD τ).loc main_arg1) ↦{fullShare} Fv 0)
      ∗ (((c : Thread nD τ).loc main_v0) ↦{fullShare.left.left} Fv 1)
      ∗ (((c : Thread nD τ).loc main_v0) ↦{fullShare.left.right} Fv 2)
      ∗ (((c : Thread nD τ).loc main_v0) ↦{fullShare.right.left} Fv 3)
      ∗ (((c : Thread nD τ).loc main_v0) ↦{fullShare.right.right} Fv 4)
      ∗ (((c : Thread nD τ).loc main_v1) ↦{fullShare} Fv 5)) := by
  unfold Dat.arrays
  rw [bigSep_W0, (arr_whole0 0).set_eq_univ, (arr_whole0 1).set_eq_univ, (arr_whole0 5).set_eq_univ]
  rfl

/-- The three buffers behind them, each whole. -/
theorem arrBufs_eq' (c : Dev nD) (Vv : (b : Ref sig .tc) → Buf (Elt F) ((c.tc : Thread nD τ).loc b)) :
    (Pipeline.arrBufs spec0 c Vv : sProp 𝕄) = iprop(
      (((c : Thread nD τ).loc main_arg1) ↦{fullShare} Vv main_arg1)
      ∗ (((c : Thread nD τ).loc main_v0) ↦{fullShare} Vv main_v0)
      ∗ (((c : Thread nD τ).loc main_v1) ↦{fullShare} Vv main_v1)) := by
  unfold Pipeline.arrBufs
  exact bigSep_eq_bigSepL_of_eq [main_arg1, main_v0, main_v1] (by decide) (by decide) _

/-- At entry: xT's whole share is halved and each half halved again, one quarter per window that reads it. -/
theorem hsplit (c : Dev nD) : (Pipeline.arrBufs spec0 c (V m c) : sProp 𝕄) ⊢ (dats m 0 c).arrays ((dats m 0 c).arrAt · 0) := by
  have e : ((dats m 0 c).arrAt · 0) = fun w => V m c (Pipeline.arrRef spec0 w) := funext fun w => A_eq m c w
  rw [e, arrBufs_eq', arrays_eq' m c]
  iintro ⟨H1, H0, H5⟩
  ihave H0 := (pointsTo_share (PosShare.mem_left_op_right fullShare)).1 $$ H0
  icases H0 with ⟨Hl, Hr⟩
  ihave Hl := (pointsTo_share (PosShare.mem_left_op_right fullShare.left)).1 $$ Hl
  icases Hl with ⟨Hll, Hlr⟩
  ihave Hr := (pointsTo_share (PosShare.mem_left_op_right fullShare.right)).1 $$ Hr
  icases Hr with ⟨Hrl, Hrr⟩
  isplitl [H1]; · iexact H1
  isplitl [Hll]; · iexact Hll
  isplitl [Hlr]; · iexact Hlr
  isplitl [Hrl]; · iexact Hrl
  isplitl [Hrr]; · iexact Hrr
  iexact H5

/-! ## After the call: the second transpose -/

/-- The program's result: the call's output array, transposed. -/
def outT (c : Dev nD) : Buf (Elt F) ((c.tc : Thread nD τ).loc main_v2) :=
  transpose S16384x10 [1, 0] ((dats m 0 c).arrAt 5 cfg0.N) transposes_S10x16384_S16384x10_1_0

/-- The buffers that bypass the call (x itself and the result buffer) as the call leaves them, -/
def Zin (c : Dev nD) : sProp 𝕄 :=
  Pipeline.unscopedRestP (Ix := Unit) (Name := ℕ) (U := UR sig nD τ) (Lvl := ℕ) Pipeline.Prefetch.none spec0 c (V m c)

/-- their contents after the second transpose: x as launched, the result buffer at `outT`, -/
def Wout (c : Dev nD) (b : Ref sig .tc) : Buf (Elt F) ((c.tc : Thread nD τ).loc b) :=
  if h : b = main_v2 then h ▸ outT m c else V m c b

/-- and the two held so. -/
def Zout (c : Dev nD) : sProp 𝕄 :=
  Pipeline.unscopedRestP (Ix := Unit) (Name := ℕ) (U := UR sig nD τ) (Lvl := ℕ) Pipeline.Prefetch.none spec0 c (Wout m c)

theorem Wout_v2 (c : Dev nD) : Wout m c main_v2 = outT m c := by unfold Wout; rw [dif_pos rfl]
theorem Wout_arg0 (c : Dev nD) : Wout m c main_arg0 = m ((c.tc : Thread nD τ).loc main_arg0) := by
  unfold Wout; rw [dif_neg (by decide)]; exact V_main_arg0 m c

theorem Zin_eq (c : Dev nD) : Zin m c = iprop((((c : Thread nD τ).loc main_arg0) ↦{fullShare} V m c main_arg0)
    ∗ (((c : Thread nD τ).loc main_v2) ↦{fullShare} V m c main_v2)) := by
  unfold Zin; rw [Pipeline.unscopedRestP_none, unscopedRest0_eq]
theorem Zout_eq (c : Dev nD) : Zout m c = iprop((((c : Thread nD τ).loc main_arg0) ↦{fullShare} Wout m c main_arg0)
    ∗ (((c : Thread nD τ).loc main_v2) ↦{fullShare} outT m c)) := by
  unfold Zout; rw [Pipeline.unscopedRestP_none, unscopedRest0_eq, Wout_v2]

/-- The two buffers the second transpose touches. -/
abbrev S1 : Finset (DevRef τ sig) := {Proc.devRef .tc main_v1, Proc.devRef .tc main_v2}

theorem v1_nmem : (Proc.devRef .tc main_v1 : DevRef τ sig) ∉ ({Proc.devRef .tc main_v2} : Finset (DevRef τ sig)) :=
  fun h => absurd (Proc.devRef_injective _ (Finset.mem_singleton.mp h)) (by decide)

/-- The contents the second transpose is handed: the output array as the call left it; the rest as the call found it. -/
def Wv (c : Dev nD) : Valuation τ sig (Elt F) :=
  Function.update (V0 m c) (Proc.devRef .tc main_v1) ((dats m 0 c).arrAt 5 cfg0.N)

theorem held_pre (c : Dev nD) : (StableHlo.held (c.tc : Thread nD τ) S1 (Wv m c) : sProp 𝕄)
    = iprop((((c : Thread nD τ).loc main_v1) ↦{fullShare} (dats m 0 c).arrAt 5 cfg0.N)
        ∗ (((c : Thread nD τ).loc main_v2) ↦{fullShare} V m c main_v2)) := by
  unfold StableHlo.held
  rw [bigSep_insert v1_nmem, bigSep_singleton]
  unfold Wv
  rw [Function.update_self, Function.update_of_ne (fun h => absurd (Proc.devRef_injective _ h) (by decide))]
  rfl

theorem held_post (c : Dev nD) : (StableHlo.held (c.tc : Thread nD τ) S1 (StableHlo.after hostOps1 (Wv m c)) : sProp 𝕄)
    = iprop((((c : Thread nD τ).loc main_v1) ↦{fullShare} (dats m 0 c).arrAt 5 cfg0.N)
        ∗ (((c : Thread nD τ).loc main_v2) ↦{fullShare} outT m c)) := by
  unfold StableHlo.held
  rw [bigSep_insert v1_nmem, bigSep_singleton]
  have e1 : StableHlo.after hostOps1 (Wv m c) (Proc.devRef .tc main_v1) = (dats m 0 c).arrAt 5 cfg0.N := by
    rw [StableHlo.after_of_forall_not_mem (b := Proc.devRef .tc main_v1) _ _ (List.forall_iff_forall_mem.mp (by
      simp only [hostOps1, List.Forall, StableHlo.unary_writes, Finset.mem_singleton]
      exact StableHlo.devRef_ne_of_ne (by decide)))]
    unfold Wv; rw [Function.update_self]
  have e2 : StableHlo.after hostOps1 (Wv m c) (Proc.devRef .tc main_v2) = outT m c := by
    after_results
    unfold Wv outT
    rw [Function.update_self]
  rw [e1, e2]; rfl

/-- From the call's exit — the windows' arrays as the call left them, the bypassing buffers as it found them — the
    second transpose runs on the output array and the result buffer, and leaves the result buffer at `outT`. -/
theorem htail (c : Dev nD) (Q' : PUnit → sProp 𝕄) :
    iprop((iprop((dats m 0 c).arrays ((dats m 0 c).arrAt · cfg0.N) ∗ Zout m c) -∗ Q' ⟨⟩)
        ∗ boundary (c.tc : Thread nD τ) ∗ (dats m 0 c).arrays ((dats m 0 c).arrAt · cfg0.N) ∗ Zin m c)
      ⊢ wp frame (wpE (defs (F := F)) (Variants.lift Variants.none) (c.tc : Thread nD τ) none) Set.univ
          (Pipeline.chain [StableHlo.seq hostOps1]) Q' := by
  rw [arrays_eq' m c, Zin_eq, Zout_eq]
  iintro ⟨Hk, Hb, ⟨H0, H1, H2, H3, H4, H5⟩, Ha0, Hv2⟩
  simp only [Pipeline.chain_cons, Pipeline.chain_nil]
  iapply (StableHlo.wp_seq (Variants.lift Variants.none) none Set.univ c S1 _ hostOps1
    (fun op hop => by rw [List.mem_singleton.mp hop]; exact Finset.Subset.refl _)
    (fun op hop => (List.forall_iff_forall_mem.mp hostOps1_fresh) op hop) (Wv m c)) $$ [Hb H5 Hv2]
  · rw [held_pre]
    isplitl [Hb]; · iexact Hb
    isplitl [H5]; · iexact H5
    iexact Hv2
  rw [held_post]
  iintro ⟨Hb, H5, Hv2⟩
  rw [wp_pure]
  imodintro
  iapply Hk
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [Ha0]
  · rw [Wout_arg0, ← V_main_arg0 m c]; iexact Ha0
  iexact Hv2

/-! ## The run -/

theorem mem_v2 : main_v2 ∈ Pipeline.restRefsP sig Pipeline.Prefetch.none spec0 :=
  Finset.mem_sdiff.mpr ⟨Pipeline.mem_restRefs_of main_v2 (by decide) (by decide), fun h => by
    obtain ⟨k, -, -⟩ := Finset.mem_image.mp h; exact k.elim0⟩
theorem mem_arg0 : main_arg0 ∈ Pipeline.restRefsP sig Pipeline.Prefetch.none spec0 :=
  Finset.mem_sdiff.mpr ⟨Pipeline.mem_restRefs_of main_arg0 (by decide) (by decide), fun h => by
    obtain ⟨k, -, -⟩ := Finset.mem_image.mp h; exact k.elim0⟩

set_option backward.isDefEq.respectTransparency.types false in
/-- From any memory with zero counters every weakly fair execution of @main ends, with the result buffer at the
    call's output array transposed and both arguments as launched. -/
theorem run_main : θ_run defs (onTc (τ := τ) (main (F := F))) ⟨m, fun _ => 0, ρ⟩ (fun r => ∀ c : Dev nD,
    r.2.mem ((c.tc : Thread nD τ).loc main_v2) = outT m c
    ∧ r.2.mem ((c.tc : Thread nD τ).loc main_arg0) = m ((c.tc : Thread nD τ).loc main_arg0)
    ∧ r.2.mem ((c.tc : Thread nD τ).loc main_arg1) = m ((c.tc : Thread nD τ).loc main_arg1)) := by
  classical
  exact Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := Zin m) (Z' := Zout m)
    (hX := fun c => by
      unfold Zin
      iintro ⟨HU, -, -, -, Hp, -⟩; imodintro
      isplitl [Hp]; · iexists _; iexact Hp
      iexact HU)
    (hin := fun c => by
      show _ ⊢ Pipeline.ΦA spec0 c
      unfold Pipeline.ΦA; iintro ⟨Hp, -, Hr⟩
      isplitl [Hr] <;> iassumption)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := htail m)
    (QY := fun c s => ∀ b ∈ Pipeline.restRefsP sig Pipeline.Prefetch.none spec0, s.mem ((c.tc : Thread nD τ).loc b) = Wout m c b)
    (hY := fun c s' => by
      iintro ⟨-, HU, HSI⟩
      unfold Zout Pipeline.unscopedRestP
      imodintro
      iapply (pointsTo_read_all (Pipeline.restRefsP sig Pipeline.Prefetch.none spec0) (fun b => (c.tc : Thread nD τ).loc b) (Wout m c) s')
      isplitl [HU] <;> iassumption)
    (hQ := fun s h c => ⟨((h c).2.2 main_v2 mem_v2).trans (Wout_v2 m c), ((h c).2.2 main_arg0 mem_arg0).trans (Wout_arg0 m c),
      (((h c).1 0).trans ((dats m 0 c).arrAt_in 0 rfl _)).trans ((A_eq m c 0).trans (V_main_arg1 m c))⟩)

end Cert.Kernel.Hand

end
-- ==== Proof.KernelIdealBody.lean ====
/-
  The kernel's frame, first half: what the body does at one grid point.

  The program is a host transpose of x into xT (64 × 16384), one pallas_call on a grid of 8 points, and a host
  transpose of its result. The call has six windows: the weights W (10 × 64, one block, fetched once), FOUR windows
  on the one array xT — window k+1 reads rows 16k … 16k+15 of the 2048 columns of point t — and the output
  (10 × 16384, block t its columns 2048 t … 2048 t + 2047). At a point the body loads the five input blocks whole,
  computes one value and stores it over the whole output block. Because four windows read one array, each holds a
  quarter share of it; the weights' window and the output hold their arrays outright.
-/
import proofs.«131396_g12841952215599_cont_fleet_1482_6_alg».proof.Proof.Gen.KernelIdeal.Launch
import proofs.«131396_g12841952215599_cont_fleet_1482_6_alg».proof.Proof.Gen.KernelIdeal.Skeleton
import proofs.«131396_g12841952215599_cont_fleet_1482_6_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the call finds them -/

/-- The buffers' contents when the call is entered: the launch contents after the first transpose. -/
abbrev V0 (c : Dev nD) : Valuation τ sig (Elt F) := StableHlo.after (List.flatten [hostOps0]) (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the first transpose, the call, the second transpose: it reduces to the call continued by the second. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The first transpose writes neither argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, Finset.mem_singleton]
    exact StableHlo.devRef_ne_of_ne (by decide)))

/-! ## The windows' blocks -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses and what it leaves in the output block -/

abbrev rW : Rect S10x64 := Rect.unit (s := S10x64) ![0, 0] S10x64.size inb_S10x64_S10x64_0_0
abbrev rX : Rect S16x2048 := Rect.unit (s := S16x2048) ![0, 0] S16x2048.size inb_S16x2048_S16x2048_0_0
abbrev rO : Rect S10x2048 := Rect.unit (s := S10x2048) ![0, 0] S10x2048.size inb_S10x2048_S10x2048_0_0

/-- The output block after the body: its one store, of the body's value of the five loaded blocks. -/
def outBlk (w : Vec F S10x64 .f32) (x1 x2 x3 x4 : Vec F S16x2048 .f32) : Vec F S10x2048 .f32 :=
  View.canon [⟨rO, k0_pay1 (View.ld w rW) (View.ld x1 rX) (View.ld x2 rX) (View.ld x3 rX) (View.ld x4 rX)⟩]

/-- The one store covers the block. -/
theorem outCover (p0 : Vec F S10x2048 .f32) (y : S10x2048.Idx) :
    ∃ pc ∈ ([⟨rO, p0⟩] : List (View.Piece (Elt F) S10x2048 .f32)), y ∈ pc.1.set :=
  View.cover_of_tiled [⟨rO, p0⟩] S10x2048.size (by rfl) y

/-! ## The body's triple -/

set_option maxHeartbeats 1000000 in
/-- On whole staging buffers, the inputs' at known contents and the output's at anything, the body runs to the
    continuation with the inputs' as they were and the output's at `outBlk` of them. -/
theorem sound_kernel (c : Dev nD) (E : Set ℕ) (i : grid0.Coords)
    (arg1 : Memref sig .tc .vmem S10x64 .f32) (harg1 : arg1.IsWhole)
    (arg2 : Memref sig .tc .vmem S16x2048 .f32) (harg2 : arg2.IsWhole) (arg3 : Memref sig .tc .vmem S16x2048 .f32) (harg3 : arg3.IsWhole)
    (arg4 : Memref sig .tc .vmem S16x2048 .f32) (harg4 : arg4.IsWhole) (arg5 : Memref sig .tc .vmem S16x2048 .f32) (harg5 : arg5.IsWhole)
    (arg6 : Memref sig .tc .vmem S10x2048 .f32) (harg6 : arg6.IsWhole)
    (w : Vec F S10x64 .f32) (x1 x2 x3 x4 : Vec F S16x2048 .f32) (K : PUnit → sProp 𝕄) :
    iprop(owns (c : Thread nD τ) arg1 fullShare w ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare w ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outBlk w x1 x2 x3 x4)) -∗ K ⟨⟩))
      ⊢ wp frame (wpE (defs₀ (F := F)) Variants.none c none) E (cc0__mm_body i arg1 harg1 arg2 harg2 arg3 harg3 arg4 harg4 arg5 harg5 arg6 harg6) K := by
  simp only [cc0__mm_body_eq_skeleton]; unfold cc0__mm_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (outCover _)

/-! ## The proof data -/

/-- The share of xT each of its four windows holds: the four quarters of the whole. -/
def qOf : Fin cfg0.W → PosShare TreeShare
  | ⟨0, _⟩ => fullShare
  | ⟨1, _⟩ => fullShare.left.left
  | ⟨2, _⟩ => fullShare.left.right
  | ⟨3, _⟩ => fullShare.right.left
  | ⟨4, _⟩ => fullShare.right.right
  | ⟨5, _⟩ => fullShare

/-- The call's proof data on core `c`: the arrays as the call finds them; after the body at point `t` each input's
    buffer at its block and the output's at `outBlk` of the input blocks; the invariant is the scoped rest and the
    generator register, untouched; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk (iblk m c 0 t) (iblk m c 1 t) (iblk m c 2 t) (iblk m c 3 t) (iblk m c 4 t)
  Φ _ := Pipeline.ΦA spec0 c
  q := qOf
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t
    = outBlk (iblk m c 0 t) (iblk m c 1 t) (iblk m c 2 t) (iblk m c 3 t) (iblk m c 4 t) := by dsimp only [dats]

/-- An input window's current buffer holds its block at every point, fetched there or not: the body leaves it in
    place, and where it is not fetched its block index has not moved. -/
theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
      (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
      (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
      (fun t => by rw [after0_4]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KernelIdealRun.lean ====
/-
  The kernel's frame, second half: the launch of the one call between the two host transposes.

  Four of the call's windows read the one array xT, so the array's whole share cannot go to each: at entry it is halved
  and each half halved again, one quarter to each window that reads it (reading needs only a share), while the weights
  and the output array are held outright. The call then runs point by point on the body's triple. At its exit the second
  transpose needs the output array and the result buffer whole, which it has: the output window held its array outright,
  and the result buffer bypassed the call. The run ends with the result buffer at the output array transposed, and x and
  W untouched (no operation writes either).
-/
import proofs.«131396_g12841952215599_cont_fleet_1482_6_alg».proof.Proof.KernelIdealBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The call's arrays, window by window -/

/-- The windows' arrays at their shares: the weights and the output whole, xT in four quarters. -/
theorem arrays_eq' (c : Dev nD) (Fv : (w : Fin cfg0.W) → Buf (Elt F) ((cfg0.win w).arr.view.loc (c.tc : Thread nD τ))) :
    ((dats m 0 c).arrays Fv : sProp 𝕄) = iprop(
      (((c : Thread nD τ).loc main_arg1) ↦{fullShare} Fv 0)
      ∗ (((c : Thread nD τ).loc main_v0) ↦{fullShare.left.left} Fv 1)
      ∗ (((c : Thread nD τ).loc main_v0) ↦{fullShare.left.right} Fv 2)
      ∗ (((c : Thread nD τ).loc main_v0) ↦{fullShare.right.left} Fv 3)
      ∗ (((c : Thread nD τ).loc main_v0) ↦{fullShare.right.right} Fv 4)
      ∗ (((c : Thread nD τ).loc main_v1) ↦{fullShare} Fv 5)) := by
  unfold Dat.arrays
  rw [bigSep_W0, (arr_whole0 0).set_eq_univ, (arr_whole0 1).set_eq_univ, (arr_whole0 5).set_eq_univ]
  rfl

/-- The three buffers behind them, each whole. -/
theorem arrBufs_eq' (c : Dev nD) (Vv : (b : Ref sig .tc) → Buf (Elt F) ((c.tc : Thread nD τ).loc b)) :
    (Pipeline.arrBufs spec0 c Vv : sProp 𝕄) = iprop(
      (((c : Thread nD τ).loc main_arg1) ↦{fullShare} Vv main_arg1)
      ∗ (((c : Thread nD τ).loc main_v0) ↦{fullShare} Vv main_v0)
      ∗ (((c : Thread nD τ).loc main_v1) ↦{fullShare} Vv main_v1)) := by
  unfold Pipeline.arrBufs
  exact bigSep_eq_bigSepL_of_eq [main_arg1, main_v0, main_v1] (by decide) (by decide) _

/-- At entry: xT's whole share is halved and each half halved again, one quarter per window that reads it. -/
theorem hsplit (c : Dev nD) : (Pipeline.arrBufs spec0 c (V m c) : sProp 𝕄) ⊢ (dats m 0 c).arrays ((dats m 0 c).arrAt · 0) := by
  have e : ((dats m 0 c).arrAt · 0) = fun w => V m c (Pipeline.arrRef spec0 w) := funext fun w => A_eq m c w
  rw [e, arrBufs_eq', arrays_eq' m c]
  iintro ⟨H1, H0, H5⟩
  ihave H0 := (pointsTo_share (PosShare.mem_left_op_right fullShare)).1 $$ H0
  icases H0 with ⟨Hl, Hr⟩
  ihave Hl := (pointsTo_share (PosShare.mem_left_op_right fullShare.left)).1 $$ Hl
  icases Hl with ⟨Hll, Hlr⟩
  ihave Hr := (pointsTo_share (PosShare.mem_left_op_right fullShare.right)).1 $$ Hr
  icases Hr with ⟨Hrl, Hrr⟩
  isplitl [H1]; · iexact H1
  isplitl [Hll]; · iexact Hll
  isplitl [Hlr]; · iexact Hlr
  isplitl [Hrl]; · iexact Hrl
  isplitl [Hrr]; · iexact Hrr
  iexact H5

/-! ## After the call: the second transpose -/

/-- The program's result: the call's output array, transposed. -/
def outT (c : Dev nD) : Buf (Elt F) ((c.tc : Thread nD τ).loc main_v2) :=
  transpose S16384x10 [1, 0] ((dats m 0 c).arrAt 5 cfg0.N) transposes_S10x16384_S16384x10_1_0

/-- The buffers that bypass the call (x itself and the result buffer) as the call leaves them, -/
def Zin (c : Dev nD) : sProp 𝕄 :=
  Pipeline.unscopedRestP (Ix := Unit) (Name := ℕ) (U := UR sig nD τ) (Lvl := ℕ) Pipeline.Prefetch.none spec0 c (V m c)

/-- their contents after the second transpose: x as launched, the result buffer at `outT`, -/
def Wout (c : Dev nD) (b : Ref sig .tc) : Buf (Elt F) ((c.tc : Thread nD τ).loc b) :=
  if h : b = main_v2 then h ▸ outT m c else V m c b

/-- and the two held so. -/
def Zout (c : Dev nD) : sProp 𝕄 :=
  Pipeline.unscopedRestP (Ix := Unit) (Name := ℕ) (U := UR sig nD τ) (Lvl := ℕ) Pipeline.Prefetch.none spec0 c (Wout m c)

theorem Wout_v2 (c : Dev nD) : Wout m c main_v2 = outT m c := by unfold Wout; rw [dif_pos rfl]
theorem Wout_arg0 (c : Dev nD) : Wout m c main_arg0 = m ((c.tc : Thread nD τ).loc main_arg0) := by
  unfold Wout; rw [dif_neg (by decide)]; exact V_main_arg0 m c

theorem Zin_eq (c : Dev nD) : Zin m c = iprop((((c : Thread nD τ).loc main_arg0) ↦{fullShare} V m c main_arg0)
    ∗ (((c : Thread nD τ).loc main_v2) ↦{fullShare} V m c main_v2)) := by
  unfold Zin; rw [Pipeline.unscopedRestP_none, unscopedRest0_eq]
theorem Zout_eq (c : Dev nD) : Zout m c = iprop((((c : Thread nD τ).loc main_arg0) ↦{fullShare} Wout m c main_arg0)
    ∗ (((c : Thread nD τ).loc main_v2) ↦{fullShare} outT m c)) := by
  unfold Zout; rw [Pipeline.unscopedRestP_none, unscopedRest0_eq, Wout_v2]

/-- The two buffers the second transpose touches. -/
abbrev S1 : Finset (DevRef τ sig) := {Proc.devRef .tc main_v1, Proc.devRef .tc main_v2}

theorem v1_nmem : (Proc.devRef .tc main_v1 : DevRef τ sig) ∉ ({Proc.devRef .tc main_v2} : Finset (DevRef τ sig)) :=
  fun h => absurd (Proc.devRef_injective _ (Finset.mem_singleton.mp h)) (by decide)

/-- The contents the second transpose is handed: the output array as the call left it; the rest as the call found it. -/
def Wv (c : Dev nD) : Valuation τ sig (Elt F) :=
  Function.update (V0 m c) (Proc.devRef .tc main_v1) ((dats m 0 c).arrAt 5 cfg0.N)

theorem held_pre (c : Dev nD) : (StableHlo.held (c.tc : Thread nD τ) S1 (Wv m c) : sProp 𝕄)
    = iprop((((c : Thread nD τ).loc main_v1) ↦{fullShare} (dats m 0 c).arrAt 5 cfg0.N)
        ∗ (((c : Thread nD τ).loc main_v2) ↦{fullShare} V m c main_v2)) := by
  unfold StableHlo.held
  rw [bigSep_insert v1_nmem, bigSep_singleton]
  unfold Wv
  rw [Function.update_self, Function.update_of_ne (fun h => absurd (Proc.devRef_injective _ h) (by decide))]
  rfl

theorem held_post (c : Dev nD) : (StableHlo.held (c.tc : Thread nD τ) S1 (StableHlo.after hostOps1 (Wv m c)) : sProp 𝕄)
    = iprop((((c : Thread nD τ).loc main_v1) ↦{fullShare} (dats m 0 c).arrAt 5 cfg0.N)
        ∗ (((c : Thread nD τ).loc main_v2) ↦{fullShare} outT m c)) := by
  unfold StableHlo.held
  rw [bigSep_insert v1_nmem, bigSep_singleton]
  have e1 : StableHlo.after hostOps1 (Wv m c) (Proc.devRef .tc main_v1) = (dats m 0 c).arrAt 5 cfg0.N := by
    rw [StableHlo.after_of_forall_not_mem (b := Proc.devRef .tc main_v1) _ _ (List.forall_iff_forall_mem.mp (by
      simp only [hostOps1, List.Forall, StableHlo.unary_writes, Finset.mem_singleton]
      exact StableHlo.devRef_ne_of_ne (by decide)))]
    unfold Wv; rw [Function.update_self]
  have e2 : StableHlo.after hostOps1 (Wv m c) (Proc.devRef .tc main_v2) = outT m c := by
    after_results
    unfold Wv outT
    rw [Function.update_self]
  rw [e1, e2]; rfl

/-- From the call's exit — the windows' arrays as the call left them, the bypassing buffers as it found them — the
    second transpose runs on the output array and the result buffer, and leaves the result buffer at `outT`. -/
theorem htail (c : Dev nD) (Q' : PUnit → sProp 𝕄) :
    iprop((iprop((dats m 0 c).arrays ((dats m 0 c).arrAt · cfg0.N) ∗ Zout m c) -∗ Q' ⟨⟩)
        ∗ boundary (c.tc : Thread nD τ) ∗ (dats m 0 c).arrays ((dats m 0 c).arrAt · cfg0.N) ∗ Zin m c)
      ⊢ wp frame (wpE (defs (F := F)) (Variants.lift Variants.none) (c.tc : Thread nD τ) none) Set.univ
          (Pipeline.chain [StableHlo.seq hostOps1]) Q' := by
  rw [arrays_eq' m c, Zin_eq, Zout_eq]
  iintro ⟨Hk, Hb, ⟨H0, H1, H2, H3, H4, H5⟩, Ha0, Hv2⟩
  simp only [Pipeline.chain_cons, Pipeline.chain_nil]
  iapply (StableHlo.wp_seq (Variants.lift Variants.none) none Set.univ c S1 _ hostOps1
    (fun op hop => by rw [List.mem_singleton.mp hop]; exact Finset.Subset.refl _)
    (fun op hop => (List.forall_iff_forall_mem.mp hostOps1_fresh) op hop) (Wv m c)) $$ [Hb H5 Hv2]
  · rw [held_pre]
    isplitl [Hb]; · iexact Hb
    isplitl [H5]; · iexact H5
    iexact Hv2
  rw [held_post]
  iintro ⟨Hb, H5, Hv2⟩
  rw [wp_pure]
  imodintro
  iapply Hk
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [Ha0]
  · rw [Wout_arg0, ← V_main_arg0 m c]; iexact Ha0
  iexact Hv2

/-! ## The run -/

theorem mem_v2 : main_v2 ∈ Pipeline.restRefsP sig Pipeline.Prefetch.none spec0 :=
  Finset.mem_sdiff.mpr ⟨Pipeline.mem_restRefs_of main_v2 (by decide) (by decide), fun h => by
    obtain ⟨k, -, -⟩ := Finset.mem_image.mp h; exact k.elim0⟩
theorem mem_arg0 : main_arg0 ∈ Pipeline.restRefsP sig Pipeline.Prefetch.none spec0 :=
  Finset.mem_sdiff.mpr ⟨Pipeline.mem_restRefs_of main_arg0 (by decide) (by decide), fun h => by
    obtain ⟨k, -, -⟩ := Finset.mem_image.mp h; exact k.elim0⟩

set_option backward.isDefEq.respectTransparency.types false in
/-- From any memory with zero counters every weakly fair execution of @main ends, with the result buffer at the
    call's output array transposed and both arguments as launched. -/
theorem run_main : θ_run defs (onTc (τ := τ) (main (F := F))) ⟨m, fun _ => 0, ρ⟩ (fun r => ∀ c : Dev nD,
    r.2.mem ((c.tc : Thread nD τ).loc main_v2) = outT m c
    ∧ r.2.mem ((c.tc : Thread nD τ).loc main_arg0) = m ((c.tc : Thread nD τ).loc main_arg0)
    ∧ r.2.mem ((c.tc : Thread nD τ).loc main_arg1) = m ((c.tc : Thread nD τ).loc main_arg1)) := by
  classical
  exact Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := Zin m) (Z' := Zout m)
    (hX := fun c => by
      unfold Zin
      iintro ⟨HU, -, -, -, Hp, -⟩; imodintro
      isplitl [Hp]; · iexists _; iexact Hp
      iexact HU)
    (hin := fun c => by
      show _ ⊢ Pipeline.ΦA spec0 c
      unfold Pipeline.ΦA; iintro ⟨Hp, -, Hr⟩
      isplitl [Hr] <;> iassumption)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := htail m)
    (QY := fun c s => ∀ b ∈ Pipeline.restRefsP sig Pipeline.Prefetch.none spec0, s.mem ((c.tc : Thread nD τ).loc b) = Wout m c b)
    (hY := fun c s' => by
      iintro ⟨-, HU, HSI⟩
      unfold Zout Pipeline.unscopedRestP
      imodintro
      iapply (pointsTo_read_all (Pipeline.restRefsP sig Pipeline.Prefetch.none spec0) (fun b => (c.tc : Thread nD τ).loc b) (Wout m c) s')
      isplitl [HU] <;> iassumption)
    (hQ := fun s h c => ⟨((h c).2.2 main_v2 mem_v2).trans (Wout_v2 m c), ((h c).2.2 main_arg0 mem_arg0).trans (Wout_arg0 m c),
      (((h c).1 0).trans ((dats m 0 c).arrAt_in 0 rfl _)).trans ((A_eq m c 0).trans (V_main_arg1 m c))⟩)

end Cert.KernelIdeal.Hand

end
-- ==== Proof.LibPlainDot.lean ====
/-
  A plain matrix product read at an index, on the extended reals.

  For the dimension numbers of an M×K by K×N product (contract the left operand's axis 1 with the right operand's axis 0,
  no batch axis) the vector unit's product into a zero accumulator, and the host's `dot_general`, both hold at (p, q)
  the sum over k of L[p,k] · R[k,q]. When the right operand is a stored [N, K] matrix transposed, the entry is the
  sum over k of L[p,k] · W[q,k]. Generic in the three extents.
-/
import Idealize.ShloMosaic.PureOps.Ideal.Laws
import Idealize.ShloMosaic.Lib.ValueIdx
import Idealize.ShloMosaic.Lib.ValueLayout

noncomputable section

open scoped BigOperators

namespace Cert.PlainDot

open Idealize.ShloMosaic Idealize.ShloMosaic.ValueIdx

variable {M K N : Nat}

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem lhs1 (i : (⟨2, ![M, N]⟩ : Shape).Idx) (q : (DotDims.plain M K N).contr.Idx) :
    ((DotDims.plain M K N).lhsIdx i q 1).val = (q ⟨0, Nat.lt_of_lt_of_eq Nat.one_pos (Eq.symm (rfl : (DotDims.plain M K N).contr.rank = 1))⟩).val :=
  (DotDims.plain M K N).lhsIdx_val_of_single rfl i q

theorem rhs0 (i : (⟨2, ![M, N]⟩ : Shape).Idx) (q : (DotDims.plain M K N).contr.Idx) :
    ((DotDims.plain M K N).rhsIdx i q 0).val = (q ⟨0, Nat.lt_of_lt_of_eq Nat.one_pos (Eq.symm (rfl : (DotDims.plain M K N).contr.rank = 1))⟩).val :=
  (DotDims.plain M K N).rhsIdx_val_of_single rfl i q

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction's sum re-indexed by its one coordinate. -/
theorem sum_contr {φ₁ φ₂ : FTy} (L : FVec Ideal ⟨2, ![M, K]⟩ φ₁) (R : FVec Ideal ⟨2, ![K, N]⟩ φ₂) (p : Fin M) (q : Fin N) :
    (∑ k : (DotDims.plain M K N).contr.Idx, L ((DotDims.plain M K N).lhsIdx (ix2 p q) k) * R ((DotDims.plain M K N).rhsIdx (ix2 p q) k))
      = ∑ k : Fin K, L (ix2 p k) * R (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs0 _ _
      | ⟨1, _⟩ => exact (lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs0 _ _).trans hk
      | ⟨1, _⟩ => exact rhs1 _ _)
  rw [el, er]

/-- The vector unit's product into the zero accumulator, at (p, q). -/
theorem matmul_zero_apply {φ₁ φ₂ : FTy} (prec : Option ContractPrecision) (L : FVec Ideal ⟨2, ![M, K]⟩ φ₁)
    (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) := by
  rw [Ideal.matmul_constant_zero_apply]
  exact sum_contr L R p q

/-- The host's product, at (p, q). -/
theorem dotGeneral_apply {φ₁ φ₂ : FTy} (prec : Option ContractPrecision) (sched : HostSchedule) (L : FVec Ideal ⟨2, ![M, K]⟩ φ₁)
    (R : FVec Ideal ⟨2, ![K, N]⟩ φ₂) (p : Fin M) (q : Fin N) :
    FloatOps.dotGeneral (DotDims.plain M K N) prec sched L R (ix2 p q) = ∑ k : Fin K, L (ix2 p k) * R (ix2 k q) := by
  rw [Ideal.dotGeneral_apply]
  exact sum_contr L R p q

/-- Against a stored [N, K] matrix transposed: the sum runs over the stored matrix's second coordinate. -/
theorem matmul_zero_transposed_apply {φ₁ φ₂ : FTy} (prec : Option ContractPrecision) (L : FVec Ideal ⟨2, ![M, K]⟩ φ₁)
    (W : FVec Ideal ⟨2, ![N, K]⟩ φ₂) (h : (⟨2, ![N, K]⟩ : Shape).Transposes [1, 0] ⟨2, ![K, N]⟩) (p : Fin M) (q : Fin N) :
    FloatOps.matmul (DotDims.plain M K N) prec L (transpose ⟨2, ![K, N]⟩ [1, 0] W h) (constant ⟨2, ![M, N]⟩ .f32 0x00000000#32) (ix2 p q)
      = ∑ k : Fin K, L (ix2 p k) * W (ix2 q k) := by
  rw [matmul_zero_apply]
  refine Finset.sum_congr rfl fun k _ => ?_
  rw [transpose_ix2_apply]

theorem dotGeneral_transposed_apply {φ₁ φ₂ : FTy} (prec : Option ContractPrecision) (sched : HostSchedule) (L : FVec Ideal ⟨2, ![M, K]⟩ φ₁)
    (W : FVec Ideal ⟨2, ![N, K]⟩ φ₂) (h : (⟨2, ![N, K]⟩ : Shape).Transposes [1, 0] ⟨2, ![K, N]⟩) (p : Fin M) (q : Fin N) :
    FloatOps.dotGeneral (DotDims.plain M K N) prec sched L (transpose ⟨2, ![K, N]⟩ [1, 0] W h) (ix2 p q)
      = ∑ k : Fin K, L (ix2 p k) * W (ix2 q k) := by
  rw [dotGeneral_apply]
  refine Finset.sum_congr rfl fun k _ => ?_
  rw [transpose_ix2_apply]

end Cert.PlainDot

end
-- ==== Proof.Spec.lean ====
/-
  The specification: logits[b, j] = Σ_i x[b, i] · W[j, i] over the extended reals, for x of 16384 rows of 64 and W of 10
  rows of 64, and the form the kernel computes it in — the 64 columns cut into four runs of 16, each run's partial
  sum taken by itself (as W[j, ·] · x[b, ·], the weights on the left) and the four added from left to right.
-/
import Idealize.ShloMosaic.PureOps.Ideal.Laws
import Idealize.ShloMosaic.Lib.ValueIdx

noncomputable section

open scoped BigOperators

namespace Cert.Spec

open Idealize.ShloMosaic Idealize.ShloMosaic.ValueIdx

/-- Column 16 n + k of the 64: column k of run n. -/
def chunkIx (n : Fin 4) (k : Fin 16) : Fin 64 := ⟨16 * n.val + k.val, by omega⟩

/-- The reference's value: entry (b, j) is the sum over the 64 columns of x[b, i] · W[j, i]. -/
def G (x : FVec Ideal ⟨2, ![16384, 64]⟩ .f32) (W : FVec Ideal ⟨2, ![10, 64]⟩ .f32) : FVec Ideal ⟨2, ![16384, 10]⟩ .f32 :=
  fun i => ∑ k : Fin 64, x (ix2 (i 0) k) * W (ix2 (i 1) k)

/-- Run n's partial sum for entry (b, j): the sum over its 16 columns of W[j, i] · x[b, i]. -/
def part (x : FVec Ideal ⟨2, ![16384, 64]⟩ .f32) (W : FVec Ideal ⟨2, ![10, 64]⟩ .f32) (n : Fin 4) (b : Fin 16384) (j : Fin 10) : EReal :=
  ∑ k : Fin 16, W (ix2 j (chunkIx n k)) * x (ix2 b (chunkIx n k))

/-- The kernel's value: the four partial sums added from left to right. -/
def Gk (x : FVec Ideal ⟨2, ![16384, 64]⟩ .f32) (W : FVec Ideal ⟨2, ![10, 64]⟩ .f32) : FVec Ideal ⟨2, ![16384, 10]⟩ .f32 :=
  fun i => ((part x W 0 (i 0) (i 1) + part x W 1 (i 0) (i 1)) + part x W 2 (i 0) (i 1)) + part x W 3 (i 0) (i 1)

end Cert.Spec

end
-- ==== Proof.Payload.lean ====
/-
  The kernel body's arithmetic, read at an entry.

  The body cuts the 10×64 weights W into four runs of 16 columns, multiplies run n (a 10×16 matrix) with the n-th
  16×2048 block into a zero accumulator, and adds the four products from left to right. At entry (j, q) product n
  holds Σ_k W[j, 16 n + k] · xₙ[k, q], so the body's value there is the four such sums added from left to right.
-/
import proofs.«131396_g12841952215599_cont_fleet_1482_6_alg».proof.Proof.Gen.KernelIdeal.Skeleton
import proofs.«131396_g12841952215599_cont_fleet_1482_6_alg».proof.Proof.LibPlainDot
import proofs.«131396_g12841952215599_cont_fleet_1482_6_alg».proof.Proof.Spec
import Idealize.ShloMosaic.Lib.ValueLayout
import Idealize.ShloMosaic.Lib.Pipeline.Value

noncomputable section

open scoped BigOperators

namespace Cert.Payload

open Idealize.ShloMosaic Idealize.ShloMosaic.ValueIdx
open Cert.KernelIdeal Cert.KernelIdeal.Gen

/-- The printed dimension numbers (contract the left operand's axis 1 with the right operand's axis 0, no batch
    axis) are those of the plain 10×16 by 16×2048 product. -/
theorem dot_eq_plain : dot_S10x16_S16x2048_S10x2048_1_0_0_1_n_n = DotDims.plain 10 16 2048 := rfl

/-- Column k of the run of W that starts at column o = 16 n is column 16 n + k of W. -/
theorem slice_apply (o : Nat) (n : Fin 4) (ho : o = 16 * n.val) (w : FVec Ideal S10x64 .f32)
    (h : S10x64.Slices ![0, o] S10x16) (j : Fin 10) (k : Fin 16) :
    extractStridedSlice S10x16 ![0, o] w h (ix2 j k) = w (ix2 j (Cert.Spec.chunkIx n k)) :=
  slice2_axis1_apply o w h j k (Cert.Spec.chunkIx n k) (by rw [ho]; rfl)

/-- Run n's product into the zero accumulator, at (j, q): Σ_k W[j, 16 n + k] · x[k, q]. -/
theorem run_apply (o : Nat) (n : Fin 4) (ho : o = 16 * n.val) (w : FVec Ideal S10x64 .f32) (x : FVec Ideal S16x2048 .f32)
    (h : S10x64.Slices ![0, o] S10x16) (hc : S16x2048.ShapeCasts S16x2048) (j : Fin 10) (q : Fin 2048) :
    matmul (F := Ideal) dot_S10x16_S16x2048_S10x2048_1_0_0_1_n_n none (extractStridedSlice S10x16 ![0, o] w h)
        (shapeCast S16x2048 x hc) (constant (F := Ideal) S10x2048 .f32 0x00000000#32) (ix2 j q)
      = ∑ k : Fin 16, w (ix2 j (Cert.Spec.chunkIx n k)) * x (ix2 k q) := by
  rw [shapeCast_self, dot_eq_plain]
  refine (Cert.PlainDot.matmul_zero_apply none (extractStridedSlice S10x16 ![0, o] w h) x j q).trans ?_
  refine Finset.sum_congr rfl fun k _ => ?_
  rw [slice_apply o n ho w h j k]

/-- The body's value at (j, q): the four runs' sums, added from left to right. -/
theorem pay_apply (w : Vec Ideal Cert.KernelIdeal.S10x64 .f32) (x1 x2 x3 x4 : Vec Ideal Cert.KernelIdeal.S16x2048 .f32) (j : Fin 10) (q : Fin 2048) :
    Cert.KernelIdeal.Gen.k0_pay1 (F := Ideal) w x1 x2 x3 x4 (ix2 j q)
      = (((∑ k : Fin 16, w (ix2 j (Cert.Spec.chunkIx 0 k)) * x1 (ix2 k q)) + ∑ k : Fin 16, w (ix2 j (Cert.Spec.chunkIx 1 k)) * x2 (ix2 k q))
          + ∑ k : Fin 16, w (ix2 j (Cert.Spec.chunkIx 2 k)) * x3 (ix2 k q)) + ∑ k : Fin 16, w (ix2 j (Cert.Spec.chunkIx 3 k)) * x4 (ix2 k q) := by
  unfold Cert.KernelIdeal.Gen.k0_pay1
  rw [addf_apply, addf_apply, addf_apply,
    run_apply 0 0 rfl w x1, run_apply 16 1 rfl w x2, run_apply 32 2 rfl w x3, run_apply 48 3 rfl w x4]

end Cert.Payload

end
-- ==== Proof.KernelIdealValue.lean ====
/-
  The output array after the call, entry by entry.

  The grid has 8 points. At point t the body reads the whole weights W (10 × 64) and, of xT (64 × 16384, the
  transpose of x), the four blocks of rows 16 n … 16 n + 15 (n = 0, 1, 2, 3) and columns 2048 t … 2048 t + 2047;
  it writes block t of the output (10 × 16384), its columns 2048 t … 2048 t + 2047. Entry (j, q) of that block is
  the four runs' partial sums Σ_k W[j, 16 n + k] · xT[16 n + k, 2048 t + q] added from left to right, and
  xT[i, b] = x[b, i], so it is the kernel's value Gk(x, W) at row b = 2048 t + q of x and row j of W. The 8 blocks
  tile the output (column b lies in block b / 2048), so after the last point the output holds Gk(x, W)[b, j] at (j, b).
-/
import proofs.«131396_g12841952215599_cont_fleet_1482_6_alg».proof.Proof.KernelIdealBody
import proofs.«131396_g12841952215599_cont_fleet_1482_6_alg».proof.Proof.Payload
import proofs.«131396_g12841952215599_cont_fleet_1482_6_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

open scoped BigOperators

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The two zero offsets, as the constant function. -/
theorem hz : (![0, 0] : Fin 2 → Nat) = fun _ => 0 := funext fun a => by fin_cases a <;> rfl

/-- The block indices at point t, checked at each of the 8 points: the weights' block is (0, 0); run n's block of xT is
    (n, t); the output's block is (0, t). -/
theorem idx_facts : ∀ t : Fin cfg0.N,
    win0_0.index t (0 : Fin 2) = 0 ∧ win0_0.index t (1 : Fin 2) = 0
    ∧ win0_1.index t (0 : Fin 2) = 0 ∧ win0_1.index t (1 : Fin 2) = t.val
    ∧ win0_2.index t (0 : Fin 2) = 1 ∧ win0_2.index t (1 : Fin 2) = t.val
    ∧ win0_3.index t (0 : Fin 2) = 2 ∧ win0_3.index t (1 : Fin 2) = t.val
    ∧ win0_4.index t (0 : Fin 2) = 3 ∧ win0_4.index t (1 : Fin 2) = t.val
    ∧ win0_5.index t (0 : Fin 2) = 0 ∧ win0_5.index t (1 : Fin 2) = t.val :=
  (by decide +kernel : ∀ t : Fin grid0.N, _)

/-- Column 2048 t + q of the 16384: column q of point t's block. -/
def col (t : Fin cfg0.N) (q : Fin 2048) : Fin 16384 :=
  ⟨2048 * t.val + q.val, by have ht : t.val < 8 := t.isLt; omega⟩

/-- The array the four x-windows read is the transpose of x. -/
theorem V_main_v0 (c : Dev nD) :
    (V m c main_v0 : S64x16384.Idx → EReal)
      = transpose S64x16384 [1, 0] (m ((c : Thread nD τ).loc main_arg0)) transposes_S16384x64_S64x16384_1_0 := by
  show StableHlo.after hostOps0 (fun b => m (c, b)) (Proc.devRef .tc main_v0) = _
  after_results

/-- xT[r, b] = x[b, r]. -/
theorem xT_apply (c : Dev nD) (r : Fin 64) (b : Fin 16384) :
    V m c main_v0 (ix2 r b) = m ((c : Thread nD τ).loc main_arg0) (ix2 b r) := by
  rw [V_main_v0]
  exact transpose_ix2_apply _ _ r b

/-- The weights' block is the whole of W. -/
theorem wblk_at (c : Dev nD) (t : Fin cfg0.N) (j : Fin 10) (i : Fin 64) :
    iblk m c 0 t (ix2 j i) = m ((c : Thread nD τ).loc main_arg1) (ix2 j i) := by
  obtain ⟨e00, e01, -⟩ := idx_facts t
  show V m c main_arg1 (((cfg0.win 0).blk t).view.emb (ix2 j i)) = _
  rw [V_main_arg1]
  refine congrArg _ (funext fun a => Fin.ext ?_)
  match a with
  | ⟨0, _⟩ => show win0_0.index t (0 : Fin 2) * 10 + 1 * j.val = j.val; omega
  | ⟨1, _⟩ => show win0_0.index t (1 : Fin 2) * 64 + 1 * i.val = i.val; omega

/-- Run 0's block at point t, entry (k, q): xT[k, 2048 t + q] = x[2048 t + q, k]. -/
theorem xblk1_at (c : Dev nD) (t : Fin cfg0.N) (k : Fin 16) (q : Fin 2048) :
    iblk m c 1 t (ix2 k q) = m ((c : Thread nD τ).loc main_arg0) (ix2 (col t q) (Cert.Spec.chunkIx 0 k)) := by
  obtain ⟨-, -, e0, e1, -⟩ := idx_facts t
  refine Eq.trans ?_ (xT_apply m c (Cert.Spec.chunkIx 0 k) (col t q))
  show V m c main_v0 (((cfg0.win 1).blk t).view.emb (ix2 k q)) = _
  refine congrArg _ (funext fun a => Fin.ext ?_)
  match a with
  | ⟨0, _⟩ => show win0_1.index t (0 : Fin 2) * 16 + 1 * k.val = 16 * 0 + k.val; omega
  | ⟨1, _⟩ => show win0_1.index t (1 : Fin 2) * 2048 + 1 * q.val = 2048 * t.val + q.val; omega

/-- Run 1's block at point t, entry (k, q): xT[16 + k, 2048 t + q] = x[2048 t + q, 16 + k]. -/
theorem xblk2_at (c : Dev nD) (t : Fin cfg0.N) (k : Fin 16) (q : Fin 2048) :
    iblk m c 2 t (ix2 k q) = m ((c : Thread nD τ).loc main_arg0) (ix2 (col t q) (Cert.Spec.chunkIx 1 k)) := by
  obtain ⟨-, -, -, -, e0, e1, -⟩ := idx_facts t
  refine Eq.trans ?_ (xT_apply m c (Cert.Spec.chunkIx 1 k) (col t q))
  show V m c main_v0 (((cfg0.win 2).blk t).view.emb (ix2 k q)) = _
  refine congrArg _ (funext fun a => Fin.ext ?_)
  match a with
  | ⟨0, _⟩ => show win0_2.index t (0 : Fin 2) * 16 + 1 * k.val = 16 * 1 + k.val; omega
  | ⟨1, _⟩ => show win0_2.index t (1 : Fin 2) * 2048 + 1 * q.val = 2048 * t.val + q.val; omega

/-- Run 2's block at point t, entry (k, q): xT[32 + k, 2048 t + q] = x[2048 t + q, 32 + k]. -/
theorem xblk3_at (c : Dev nD) (t : Fin cfg0.N) (k : Fin 16) (q : Fin 2048) :
    iblk m c 3 t (ix2 k q) = m ((c : Thread nD τ).loc main_arg0) (ix2 (col t q) (Cert.Spec.chunkIx 2 k)) := by
  obtain ⟨-, -, -, -, -, -, e0, e1, -⟩ := idx_facts t
  refine Eq.trans ?_ (xT_apply m c (Cert.Spec.chunkIx 2 k) (col t q))
  show V m c main_v0 (((cfg0.win 3).blk t).view.emb (ix2 k q)) = _
  refine congrArg _ (funext fun a => Fin.ext ?_)
  match a with
  | ⟨0, _⟩ => show win0_3.index t (0 : Fin 2) * 16 + 1 * k.val = 16 * 2 + k.val; omega
  | ⟨1, _⟩ => show win0_3.index t (1 : Fin 2) * 2048 + 1 * q.val = 2048 * t.val + q.val; omega

/-- Run 3's block at point t, entry (k, q): xT[48 + k, 2048 t + q] = x[2048 t + q, 48 + k]. -/
theorem xblk4_at (c : Dev nD) (t : Fin cfg0.N) (k : Fin 16) (q : Fin 2048) :
    iblk m c 4 t (ix2 k q) = m ((c : Thread nD τ).loc main_arg0) (ix2 (col t q) (Cert.Spec.chunkIx 3 k)) := by
  obtain ⟨-, -, -, -, -, -, -, -, e0, e1, -⟩ := idx_facts t
  refine Eq.trans ?_ (xT_apply m c (Cert.Spec.chunkIx 3 k) (col t q))
  show V m c main_v0 (((cfg0.win 4).blk t).view.emb (ix2 k q)) = _
  refine congrArg _ (funext fun a => Fin.ext ?_)
  match a with
  | ⟨0, _⟩ => show win0_4.index t (0 : Fin 2) * 16 + 1 * k.val = 16 * 3 + k.val; omega
  | ⟨1, _⟩ => show win0_4.index t (1 : Fin 2) * 2048 + 1 * q.val = 2048 * t.val + q.val; omega

/-- The output array: entry (j, b) is the kernel's value for row b of x and row j of W. -/
abbrev GT (c : Dev nD) : S10x16384.Idx → EReal :=
  fun i => Cert.Spec.Gk (m ((c : Thread nD τ).loc main_arg0)) (m ((c : Thread nD τ).loc main_arg1)) (ix2 (i 1) (i 0))

/-- The body's value of point t's five blocks, at (j, q), is the output array's entry (j, 2048 t + q). -/
theorem out_at (c : Dev nD) (t : Fin cfg0.N) (j : Fin 10) (q : Fin 2048) :
    k0_pay1 (F := Ideal) (iblk m c 0 t) (iblk m c 1 t) (iblk m c 2 t) (iblk m c 3 t) (iblk m c 4 t) (ix2 j q)
      = GT m c (ix2 j (col t q)) := by
  rw [Cert.Payload.pay_apply]
  show _ = ((Cert.Spec.part _ _ 0 (col t q) j + Cert.Spec.part _ _ 1 (col t q) j) + Cert.Spec.part _ _ 2 (col t q) j)
      + Cert.Spec.part _ _ 3 (col t q) j
  unfold Cert.Spec.part
  refine congrArg₂ (· + ·) (congrArg₂ (· + ·) (congrArg₂ (· + ·) ?_ ?_) ?_) ?_ <;>
    refine Finset.sum_congr rfl fun k _ => ?_
  · rw [wblk_at, xblk1_at]
  · rw [wblk_at, xblk2_at]
  · rw [wblk_at, xblk3_at]
  · rw [wblk_at, xblk4_at]

/-- Entry (j, q) of the output's block t is entry (j, 2048 t + q) of the output. -/
theorem emb5 (t : Fin cfg0.N) (j : Fin 10) (q : Fin 2048) :
    ((cfg0.win 5).blk t).view.emb (ix2 j q) = ix2 j (col t q) := by
  obtain ⟨-, -, -, -, -, -, -, -, -, -, e0, e1⟩ := idx_facts t
  refine funext fun a => Fin.ext ?_
  match a with
  | ⟨0, _⟩ => show win0_5.index t (0 : Fin 2) * 10 + 1 * j.val = j.val; omega
  | ⟨1, _⟩ => show win0_5.index t (1 : Fin 2) * 2048 + 1 * q.val = 2048 * t.val + q.val; omega

/-- What point t writes back is block t of the output array GT. -/
theorem flushed_eq (c : Dev nD) (t : Fin cfg0.N) :
    (dats (F := Ideal) m 0 c).flushed 5 t = ((cfg0.win 5).blk t).view.read (Elt Ideal) (GT m c) := by
  show (cfg0.win 5).cut (grid0.coords t) ((dats m 0 c).after 5 t) = _
  rw [after0_5]
  unfold outBlk
  rw [View.canon_unit_zero hz]
  simp only [View.ld_unit_zero (S := S10x64) hz, View.ld_unit_zero (S := S16x2048) hz]
  funext y
  obtain ⟨j, q, rfl⟩ : ∃ (j : Fin 10) (q : Fin 2048), y = ix2 j q := ⟨y 0, y 1, eq_ix2 y⟩
  show k0_pay1 (F := Ideal) (iblk m c 0 t) (iblk m c 1 t) (iblk m c 2 t) (iblk m c 3 t) (iblk m c 4 t) (ix2 j q)
      = GT m c (((cfg0.win 5).blk t).view.emb (ix2 j q))
  rw [emb5, out_at]

/-- An index of the output is in block t iff each coordinate is in the block's range on its axis. -/
theorem mem_blk5 (t : Fin cfg0.N) (i : S10x16384.Idx) :
    i ∈ ((cfg0.win 5).blk t).view.set
      ↔ ∀ a : Fin 2, win0_5.index t a * S10x2048.size a ≤ (i a).val ∧ (i a).val < win0_5.index t a * S10x2048.size a + S10x2048.size a := by
  show i ∈ ((View.whole main_v1).slice (win0_5.rect t)).set ↔ _
  rw [View.set_slice_whole, Rect.mem_set_unit]
  exact Iff.rfl

/-- Every index of the output is in some point's block: column b is in block b / 2048. -/
theorem cover (i : S10x16384.Idx) :
    ∃ t : Fin cfg0.N, (cfg0.win 5).flush t = true ∧ i ∈ ((cfg0.win 5).blk t).view.set := by
  have hi0 : (i 0).val < 10 := (i 0).isLt
  have hi1 : (i 1).val < 16384 := (i 1).isLt
  let t : Fin cfg0.N := ⟨(i 1).val / 2048, by show (i 1).val / 2048 < 8; omega⟩
  have htv : t.val = (i 1).val / 2048 := rfl
  obtain ⟨-, -, -, -, -, -, -, -, -, -, e0, e1⟩ := idx_facts t
  refine ⟨t, flush0_5 t, ?_⟩
  rw [mem_blk5]
  intro a
  match a with
  | ⟨0, _⟩ => show win0_5.index t (0 : Fin 2) * 10 ≤ (i 0).val ∧ (i 0).val < win0_5.index t (0 : Fin 2) * 10 + 10; omega
  | ⟨1, _⟩ => show win0_5.index t (1 : Fin 2) * 2048 ≤ (i 1).val ∧ (i 1).val < win0_5.index t (1 : Fin 2) * 2048 + 2048; omega

/-- The output after the last point: entry (j, b) is Gk(x, W)[b, j]. -/
theorem arrAt_out (c : Dev nD) (j : Fin 10) (b : Fin 16384) :
    (dats (F := Ideal) m 0 c).arrAt 5 cfg0.N (ix2 j b) = Cert.Spec.Gk (m ((c.tc : Thread nD τ).loc main_arg0)) (m ((c.tc : Thread nD τ).loc main_arg1)) (ix2 b j) := by
  rw [(dats (F := Ideal) m 0 c).arrAt_eq_of_cover 5 (GT m c) (fun t _ => flushed_eq m c t) cover]

end Cert.KernelIdeal.HandValue

end
-- ==== Proof.RefLaw.lean ====
/-
  Two laws about the specification. The reference's value is G: the generated reading of its one dot_general gives, at
  entry (b, j), the sum over the 64 columns of x[b, k] · W[j, k], with the operands' indices built coordinate by
  coordinate. And the regrouped form Gk is G: the 64 columns are the disjoint union of the four runs
  {16 n + k : k < 16}, n < 4, so the whole sum is the sum of the four partial sums; inside each term the two factors
  are swapped. Only commutativity and associativity of + and · on the extended reals are used.
-/
import proofs.«131396_g12841952215599_cont_fleet_1482_6_alg».proof.Proof.Spec
import proofs.«131396_g12841952215599_cont_fleet_1482_6_alg».proof.Proof.Gen.ReferenceIdeal.Read
import Mathlib.Algebra.BigOperators.Fin
import Mathlib.Data.Fintype.BigOperators
import Mathlib.Data.EReal.Inv

noncomputable section

open scoped BigOperators

namespace Cert.RefLaw

open Idealize.ShloMosaic Idealize.ShloMosaic.ValueIdx Cert.Spec

/-! ## The reference's value is G -/

/-- The left operand's index at output entry i and column k has coordinates (i 0, k). -/
theorem lidx_eq (i : (⟨2, ![16384, 10]⟩ : Shape).Idx) (k : Fin 64) :
    Cert.ReferenceIdeal.Read.lidx_main_v0 i k = ix2 (i 0) k :=
  funext fun a => Fin.ext (by match a with | ⟨0, _⟩ => rfl | ⟨1, _⟩ => rfl)

/-- The right operand's index at output entry i and column k has coordinates (i 1, k). -/
theorem ridx_eq (i : (⟨2, ![16384, 10]⟩ : Shape).Idx) (k : Fin 64) :
    Cert.ReferenceIdeal.Read.ridx_main_v0 i k = ix2 (i 1) k :=
  funext fun a => Fin.ext (by match a with | ⟨0, _⟩ => rfl | ⟨1, _⟩ => rfl)

theorem ref_is_G (x : FVec Ideal ⟨2, ![16384, 64]⟩ .f32) (W : FVec Ideal ⟨2, ![10, 64]⟩ .f32) :
    Cert.ReferenceIdeal.Read.val_main_v0 (F := Ideal) x W = Cert.Spec.G x W := by
  funext i
  rw [Cert.ReferenceIdeal.Read.val_main_v0_apply]
  refine Finset.sum_congr rfl fun k _ => ?_
  rw [lidx_eq, ridx_eq]
  rfl

/-! ## The four runs of 16 make up the 64 columns -/

/-- (n, k) ↦ 16 n + k is a bijection from 4 × 16 onto 64; its inverse is i ↦ (i / 16, i % 16). -/
def chunkEquiv : Fin 4 × Fin 16 ≃ Fin 64 where
  toFun p := chunkIx p.1 p.2
  invFun i := (⟨i.val / 16, by omega⟩, ⟨i.val % 16, by omega⟩)
  left_inv p := by
    obtain ⟨n, k⟩ := p
    refine Prod.ext (Fin.ext ?_) (Fin.ext ?_)
    · show (16 * n.val + k.val) / 16 = n.val
      omega
    · show (16 * n.val + k.val) % 16 = k.val
      omega
  right_inv i := by
    refine Fin.ext ?_
    show 16 * (i.val / 16) + i.val % 16 = i.val
    omega

/-- A sum over the 64 columns is the sum of the sums over the four runs, added from left to right. -/
theorem sum_runs {M : Type*} [AddCommMonoid M] (f : Fin 64 → M) :
    ∑ i : Fin 64, f i
      = ((∑ k : Fin 16, f (chunkIx 0 k) + ∑ k : Fin 16, f (chunkIx 1 k)) + ∑ k : Fin 16, f (chunkIx 2 k))
          + ∑ k : Fin 16, f (chunkIx 3 k) := by
  rw [← Equiv.sum_comp chunkEquiv f, Fintype.sum_prod_type, Fin.sum_univ_four]
  rfl

/-- A run's partial sum with the factors in the reference's order. -/
theorem part_comm (x : FVec Ideal ⟨2, ![16384, 64]⟩ .f32) (W : FVec Ideal ⟨2, ![10, 64]⟩ .f32) (n : Fin 4)
    (b : Fin 16384) (j : Fin 10) :
    part x W n b j = ∑ k : Fin 16, x (ix2 b (chunkIx n k)) * W (ix2 j (chunkIx n k)) :=
  Finset.sum_congr rfl fun _ _ => mul_comm _ _

theorem Gk_eq_G (x : FVec Ideal ⟨2, ![16384, 64]⟩ .f32) (W : FVec Ideal ⟨2, ![10, 64]⟩ .f32) :
    Cert.Spec.Gk x W = Cert.Spec.G x W := by
  funext i
  show ((part x W 0 (i 0) (i 1) + part x W 1 (i 0) (i 1)) + part x W 2 (i 0) (i 1)) + part x W 3 (i 0) (i 1)
    = ∑ k : Fin 64, x (ix2 (i 0) k) * W (ix2 (i 1) k)
  rw [sum_runs (fun k : Fin 64 => x (ix2 (i 0) k) * W (ix2 (i 1) k))]
  exact congrArg₂ (· + ·) (congrArg₂ (· + ·) (congrArg₂ (· + ·) (part_comm x W 0 _ _) (part_comm x W 1 _ _))
    (part_comm x W 2 _ _)) (part_comm x W 3 _ _)

end Cert.RefLaw

end
-- ==== Proof.lean ====
/-
  The certificate's assembly. The kernel transposes x, computes in one call the 10 × 16384 array that holds at (j, b) the
  four-run sum Gk[b, j] — the 64 columns cut into four runs of 16, each run's partial sum W[j, ·] · x[b, ·] taken by
  itself and the four added from left to right —, and transposes that array back; so its result array is Gk of the two
  arguments. The reference's one dot_general is G of them, the plain sum over the 64 columns of x[b, i] · W[j, i]. The
  two are one function of the arguments: the four runs of 16 columns are the 64 columns, and + and · on the extended
  reals are commutative and associative (no finiteness is used). That is the algebraic claim, with Gk of the arguments
  as the common value. The three frames are the three runs with the result forgotten; the idealization rewrote nothing.
-/
import proofs.«131396_g12841952215599_cont_fleet_1482_6_alg».proof.Defs
import proofs.«131396_g12841952215599_cont_fleet_1482_6_alg».proof.Proof.KernelRun
import proofs.«131396_g12841952215599_cont_fleet_1482_6_alg».proof.Proof.KernelIdealRun
import proofs.«131396_g12841952215599_cont_fleet_1482_6_alg».proof.Proof.KernelIdealValue
import proofs.«131396_g12841952215599_cont_fleet_1482_6_alg».proof.Proof.RefLaw
import proofs.«131396_g12841952215599_cont_fleet_1482_6_alg».proof.Proof.Gen.Kernel
import proofs.«131396_g12841952215599_cont_fleet_1482_6_alg».proof.Proof.Gen.KernelIdeal
import proofs.«131396_g12841952215599_cont_fleet_1482_6_alg».proof.Proof.Gen.ReferenceIdeal
import proofs.«131396_g12841952215599_cont_fleet_1482_6_alg».proof.Proof.Gen.Pre_finite_inputs
import Idealize.ShloMosaic.Lib.ValueLayout
import Idealize.ShloMosaic.Adequacy
import Idealize.ShloMosaic.Init

noncomputable section

namespace Cert.Proof

open Idealize.ShloMosaic Idealize.ShloMosaic.TcCoe Idealize.SL.Sem Idealize.ShloMosaic.ValueIdx

/-! ## What the kernel leaves in its result array -/

/-- The kernel's result is its call's output array read transposed; that array holds Gk[b, j] at (j, b); so the
    result holds Gk[b, j] at (b, j): it is Gk of the two arguments. -/
theorem kernel_result (m : (ℓ : Loc Cert.KernelIdeal.nD Cert.KernelIdeal.τ Cert.KernelIdeal.sig) → Buf (Elt Ideal) ℓ)
    (c : Dev Cert.KernelIdeal.nD) :
    Cert.KernelIdeal.Hand.outT (F := Ideal) m c
      = Cert.Spec.Gk (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
  funext i
  obtain ⟨b, j, rfl⟩ : ∃ (b : Fin 16384) (j : Fin 10), i = ix2 b j := ⟨i 0, i 1, eq_ix2 i⟩
  exact (transpose_ix2_apply _ _ b j).trans (Cert.KernelIdeal.HandValue.arrAt_out m c j b)

/-! ## The frames -/

/-- The kernel's frame, at the word level, is its run with the result forgotten. -/
theorem frame_p : Cert.frame_Kernel := fun m ρ _ =>
  (θ_run Cert.Kernel.defs _ _).mono (fun _ h c => (h c).2) (Cert.Kernel.Hand.run_main (F := Bits) m ρ)

/-- The idealized kernel's frame is its run with the result forgotten. -/
theorem frame_pi : Cert.frame_KernelIdeal := fun m ρ _ =>
  (θ_run Cert.KernelIdeal.defs _ _).mono (fun _ h c => (h c).2) (Cert.KernelIdeal.Hand.run_main (F := Ideal) m ρ)

/-- The reference's frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation: nothing to restate. -/
theorem preserves : Cert.preserves_Kernel_KernelIdeal := trivial

/-! ## The two results are one -/

/-- From memories that agree on x and W both programs run; the kernel ends with Gk x W in its result array, the
    reference with G x W, and Gk x W = G x W. The common value is Gk of the kernel's arguments. -/
theorem algebraic : Cert.algebraic_KernelIdeal_ReferenceIdeal := by
  intro m ρ m' ρ' _ hagree
  refine ⟨fun c => Cert.Spec.Gk
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono (fun _ h c => ⟨(h c).1.trans (kernel_result m c), (h c).2⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2, Cert.ReferenceIdeal.Read.val_main_v0_eq, Cert.RefLaw.ref_is_G]
    exact (Cert.RefLaw.Gk_eq_G _ _).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
